-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S2x1600000 : Shape := ⟨2, ![2, 1600000]⟩
abbrev S1433x128 : Shape := ⟨2, ![1433, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x128 : S_.BroadcastsInDim S1433x128 (![] : Fin 0 → Fin S1433x128.rank)
  reducesTo_S1433x128_S_d0_1 : S1433x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x1433 .f32) (main_arg1 : IVec S2x1600000 32) (main_arg2 : FVec F S1433x128 .f32) (main_arg3 : FVec F S128 .f32) (main_arg4 : FVec F S128x64 .f32) (main_arg5 : FVec F S64 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x128 .f32 := Host.absf main_arg2
  let main_cst_0 : FVec F S_ .f32 := constant S_ .f32 0x7F800000#32
  let main_v5 : FVec F S1433x128 .f32 := broadcastInDim S1433x128 ![] bcast_S_S1433x128 main_cst_0
  let main_v6 : IVec S1433x128 1 := cmpf .olt main_v4 main_v5
  let main_c_1 : IVec S_ 1 := constantI S_ 1 1#1
  let main_v7 : IVec S_ 1 := (fun x v => Host.reduce IntOp.andi x v reducesTo_S1433x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x1433 : Shape := ⟨2, ![100000, 1433]⟩
abbrev S2x1600000 : Shape := ⟨2, ![2, 1600000]⟩
abbrev S1433x128 : Shape := ⟨2, ![1433, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x1433 : Shape := ⟨2, ![2000, 1433]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S4000x128 : Shape := ⟨2, ![4000, 128]⟩
abbrev S4000x64 : Shape := ⟨2, ![4000, 64]⟩
abbrev S1700000x64 : Shape := ⟨2, ![1700000, 64]⟩
abbrev S1x64 : Shape := ⟨2, ![1, 64]⟩

abbrev nBuf : Space → Nat
  | .hbm => 92
  | .vmem => 10
  | .smem => 0
  | _ => 0

abbrev bufTy : (tb : Table) → Fin (tcTables nBuf tb) → BufTy
  | .hbm, ⟨0, _⟩ => ⟨S100000x1433, .f32⟩
  | .hbm, ⟨1, _⟩ => ⟨S2x1600000, .i32⟩
  | .hbm, ⟨2, _⟩ => ⟨S1433x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .local _ .vmem, ⟨0, _⟩ => ⟨S2000x1433, .f32⟩
  | .local _ .vmem, ⟨1, _⟩ => ⟨S2000x1433, .f32⟩
  | .local _ .vmem, ⟨2, _⟩ => ⟨S1433x128, .f32⟩
  | .local _ .vmem, ⟨3, _⟩ => ⟨S2000x128, .f32⟩
  | .local _ .vmem, ⟨4, _⟩ => ⟨S2000x128, .f32⟩
  | .local _ .vmem, ⟨5, _⟩ => ⟨S4000x128, .f32⟩
  | .local _ .vmem, ⟨6, _⟩ => ⟨S4000x128, .f32⟩
  | .local _ .vmem, ⟨7, _⟩ => ⟨S128x64, .f32⟩
  | .local _ .vmem, ⟨8, _⟩ => ⟨S4000x64, .f32⟩
  | .local _ .vmem, ⟨9, _⟩ => ⟨S4000x64, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x1433_S2000x1433_0_0 : ∀ a, (![0, 0] : Fin 2 → Nat) a + S2000x1433.size a ≤ S2000x1433.size a
  h_S2000x1433 : 0 < S2000x1433.numel
  bitsLt_bf16_f32 : FTy.bits .bf16 < FTy.bits .f32
  inb_S1433x128_S1433x128_0_0 : ∀ a, (![0, 0] : Fin 2 → Nat) a + S1433x128.size a ≤ S1433x128.size a
  h_S1433x128 : 0 < S1433x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x1433_S1433x128_S2000x128_1_0_0_1_n_n_wf : DotDims.WF S2000x1433 S1433x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S100000x1433.size a
  hwx0_0 : ∀ i : grid0.Coords, EltTy.bits .f32 = 32 ∨ (Rect.block (s := S100000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x128.size a ≤ S1433x128.size a
  hwx0_1 : ∀ i : grid0.Coords, EltTy.bits .f32 = 32 ∨ (Rect.block (s := S1433x128) S1433x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x1433_S1433x128_S2000x128_1_0_0_1_n_n : DotDims S2000x1433 S1433x128 S2000x128 where
  lhsContracting := [1]
  rhsContracting := [0]
  lhsNonContracting := [0]
  rhsNonContracting := [1]
  lhsBatch := []
  rhsBatch := []
  wf := dot_S2000x1433_S1433x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x1433 : Shape := ⟨2, ![100000, 1433]⟩
abbrev S2x1600000 : Shape := ⟨2, ![2, 1600000]⟩
abbrev S1433x128 : Shape := ⟨2, ![1433, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x1433, .f32⟩
  | .hbm, ⟨1, _⟩ => ⟨S2x1600000, .i32⟩
  | .hbm, ⟨2, _⟩ => ⟨S1433x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1433_S1433x128_S100000x128_1_0_0_1_n_n_wf : DotDims.WF S100000x1433 S1433x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1433_S1433x128_S100000x128_1_0_0_1_n_n : DotDims S100000x1433 S1433x128 S100000x128 where
  lhsContracting := [1]
  rhsContracting := [0]
  lhsNonContracting := [0]
  rhsNonContracting := [1]
  lhsBatch := []
  rhsBatch := []
  wf := dot_S100000x1433_S1433x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Layers.lean ====
/- The computation both programs perform, as one function of the six argument arrays.
   A two-layer graph convolution over the edge list with a self loop appended at every node:
     src, dst   the two rows of the edge list, each followed by 0 … 99999;
     deg        how many edges arrive at each node (a scatter-add of ones over dst);
     dinv       deg^(-1/2) where deg > 0 (of max(deg, 1e-12)), else 0;
     norm       dinv[src] * dinv[dst], one number per edge;
     layer      h ↦ (scatter-add over dst of h[src] * norm) + bias, with negative node numbers wrapped by the node count;
     result     layer₂ (relu (layer₁ (x · W1) b1) · W2) b2.
   The reference program's composed term is this function of its launch contents (`res_eq`): the same operations, named. -/
import proofs.«107283_j11751030522455_1_alg».proof.Proof.RefRun

noncomputable section

namespace Cert.ReferenceIdeal.Layers

open Cert.ReferenceIdeal Cert.ReferenceIdeal.Gen Idealize.ShloMosaic Idealize.ShloMosaic.TcCoe Idealize.SL.Sem Idealize.ShloMosaic.StableHlo

variable {F : FTy → Type} [FloatOps F]

/-- The edges' sources: row 0 of the edge list, then every node once (its self loop). -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' targets: row 1 of the edge list, then every node once. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node number below zero counts from the end: the node count is added to it. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- The number of edges arriving at each node: ones added up over the targets. -/
def degOf (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- deg^(-1/2) where the degree is positive, zero elsewhere. -/
def dinvOf (deg : (⟨S100000, .f32⟩ : BufTy).Contents (Elt F)) : (⟨S100000, .f32⟩ : BufTy).Contents (Elt F) :=
  select (cmpf (F := F) .ogt deg (broadcastInDim S100000 ![] bcast_S_S100000 (constant S_ .f32 0x00000000#32))) (Host.rsqrt (maximumf deg (broadcastInDim S100000 ![] bcast_S_S100000 (constant S_ .f32 0x2B8CBCCC#32)))) (broadcastInDim S100000 ![] bcast_S_S100000 (id (constant S_ .f32 0x00000000#32)))

/-- Each edge's weight from the nodes' scalings: the scaling at its source times the scaling at its target. -/
def normWith (dinv : (⟨S100000, .f32⟩ : BufTy).Contents (Elt F)) (src dst : (⟨S1700000, .i32⟩ : BufTy).Contents (Elt F)) : (⟨S1700000, .f32⟩ : BufTy).Contents (Elt F) :=
  mulf (Host.gather gather_S100000_S1700000x1_S1700000_n_0_n_n_0_1_1 dinv (broadcastInDim S1700000x1 ![0] bcast_S1700000_S1700000x1_0 (wrap src))) (Host.gather gather_S100000_S1700000x1_S1700000_n_0_n_n_0_1_1 dinv (broadcastInDim S1700000x1 ![0] bcast_S1700000_S1700000x1_0 (wrap dst)))

/-- The symmetric normalisation of each edge: dinv at its source times dinv at its target. -/
def normOf (src dst : (⟨S1700000, .i32⟩ : BufTy).Contents (Elt F)) : (⟨S1700000, .f32⟩ : BufTy).Contents (Elt F) :=
  normWith (dinvOf (degOf dst)) src dst

/-- The first layer's aggregation of 128 features: every edge carries its source's row scaled by the edge's
    normalisation to its target, where the rows add up; then the bias. -/
def layer128 (src dst : (⟨S1700000, .i32⟩ : BufTy).Contents (Elt F)) (norm : (⟨S1700000, .f32⟩ : BufTy).Contents (Elt F))
    (h : (⟨S100000x128, .f32⟩ : BufTy).Contents (Elt F)) (b : (⟨S128, .f32⟩ : BufTy).Contents (Elt F)) : (⟨S100000x128, .f32⟩ : BufTy).Contents (Elt F) :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 h (broadcastInDim S1700000x1 ![0] bcast_S1700000_S1700000x1_0 (wrap src))) (broadcastInDim S1700000x128 ![0, 1] bcast_S1700000x1_S1700000x128_0_1 (broadcastInDim S1700000x1 ![0] bcast_S1700000_S1700000x1_0 norm)))) (broadcastInDim S100000x128 ![0, 1] bcast_S1x128_S100000x128_0_1 (broadcastInDim S1x128 ![1] bcast_S128_S1x128_1 b))

/-- The rectifier between the layers. -/
def relu128 (a : (⟨S100000x128, .f32⟩ : BufTy).Contents (Elt F)) : (⟨S100000x128, .f32⟩ : BufTy).Contents (Elt F) :=
  maximumf a (broadcastInDim S100000x128 ![] bcast_S_S100000x128 (constant S_ .f32 0x00000000#32))

/-- The second layer's aggregation, of 64 features. -/
def layer64 (src dst : (⟨S1700000, .i32⟩ : BufTy).Contents (Elt F)) (norm : (⟨S1700000, .f32⟩ : BufTy).Contents (Elt F))
    (h : (⟨S100000x64, .f32⟩ : BufTy).Contents (Elt F)) (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 h (broadcastInDim S1700000x1 ![0] bcast_S1700000_S1700000x1_0 (wrap src))) (broadcastInDim S1700000x64 ![0, 1] bcast_S1700000x1_S1700000x64_0_1 (broadcastInDim S1700000x1 ![0] bcast_S1700000_S1700000x1_0 norm)))) (broadcastInDim S100000x64 ![0, 1] bcast_S1x64_S100000x64_0_1 (broadcastInDim S1x64 ![1] bcast_S64_S1x64_1 b))

/-- The first linear map, all rows at once. -/
def lin1 (x : (⟨S100000x1433, .f32⟩ : BufTy).Contents (Elt F)) (w : (⟨S1433x128, .f32⟩ : BufTy).Contents (Elt F)) : (⟨S100000x128, .f32⟩ : BufTy).Contents (Elt F) :=
  Host.dotGeneral dot_S100000x1433_S1433x128_S100000x128_1_0_0_1_n_n none x w

/-- The second linear map, all rows at once. -/
def lin2 (a : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none a w

/-- The hidden features after the first layer and the rectifier, given the first linear map's output. -/
def hidden (e : (⟨S2x1600000, .i32⟩ : BufTy).Contents (Elt F)) (h1 : (⟨S100000x128, .f32⟩ : BufTy).Contents (Elt F))
    (b1 : (⟨S128, .f32⟩ : BufTy).Contents (Elt F)) : (⟨S100000x128, .f32⟩ : BufTy).Contents (Elt F) :=
  relu128 (layer128 (srcOf e) (dstOf e) (normOf (srcOf e) (dstOf e)) h1 b1)

/-- The result, given the second linear map's output. -/
def output (e : (⟨S2x1600000, .i32⟩ : BufTy).Contents (Elt F)) (h2 : (⟨S100000x64, .f32⟩ : BufTy).Contents (Elt F))
    (b2 : (⟨S64, .f32⟩ : BufTy).Contents (Elt F)) : (⟨S100000x64, .f32⟩ : BufTy).Contents (Elt F) :=
  layer64 (srcOf e) (dstOf e) (normOf (srcOf e) (dstOf e)) h2 b2

/-- The whole encoder. -/
def gcn (x : (⟨S100000x1433, .f32⟩ : BufTy).Contents (Elt F)) (e : (⟨S2x1600000, .i32⟩ : BufTy).Contents (Elt F))
    (w1 : (⟨S1433x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) : (⟨S100000x64, .f32⟩ : BufTy).Contents (Elt F) :=
  output e (lin2 (hidden e (lin1 x w1) b1) w2) b2

set_option maxRecDepth 8192 in
/-- The reference's composed term is the encoder of its launch contents: the same operations, in the same order. -/
theorem res_eq (m : (ℓ : Loc nD τ sig) → Buf (Elt F) ℓ) (c : Dev nD) :
    Cert.ReferenceIdeal.ValueP.res_main_v66 m c
      = gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v66 gcn output hidden lin1 lin2 layer64 relu128 layer128 normOf normWith dinvOf degOf wrap srcOf dstOf
  rfl

end Cert.ReferenceIdeal.Layers

end
-- ==== Proof.BlockProduct.lean ====
/- The two kernel bodies' stored values read at an index, at the ideal values.
   Each body loads its whole left block and its whole right operand, rounds both to bf16 (the identity on the
   extended reals) and multiplies them into a zero accumulator. So entry (r, q) of what it stores is the sum
   over the shared axis k of  left (r, k) * right (k, q):  1433 terms in the first call, 128 in the second. -/
import proofs.«107283_j11751030522455_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.TcCoe Idealize.SL.Sem

/-! ## First call: a [2000, 1433] block of rows times the [1433, 128] weights -/

/-- On the row axis the left operand's index is the output's row. -/
theorem lhsA_0 (i : S2000x128.Idx) (q : dot_S2000x1433_S1433x128_S2000x128_1_0_0_1_n_n.contr.Idx) :
    (dot_S2000x1433_S1433x128_S2000x128_1_0_0_1_n_n.lhsIdx i q 0).val = (i 0).val := by
  unfold DotDims.lhsIdx
  rw [dif_neg (show ¬(0 : Fin S2000x1433.rank) ∈ dot_S2000x1433_S1433x128_S2000x128_1_0_0_1_n_n.lhsBatch by decide), dif_pos (show (0 : Fin S2000x1433.rank) ∈ dot_S2000x1433_S1433x128_S2000x128_1_0_0_1_n_n.lhsNonContracting by decide)]
  rfl
/-- On the shared axis it is the summation position. -/
theorem lhsA_1 (i : S2000x128.Idx) (q : dot_S2000x1433_S1433x128_S2000x128_1_0_0_1_n_n.contr.Idx) :
    (dot_S2000x1433_S1433x128_S2000x128_1_0_0_1_n_n.lhsIdx i q 1).val = (q ⟨0, by decide⟩).val :=
  dot_S2000x1433_S1433x128_S2000x128_1_0_0_1_n_n.lhsIdx_val_of_single rfl i q
/-- The right operand's index is the summation position on the shared axis, -/
theorem rhsA_0 (i : S2000x128.Idx) (q : dot_S2000x1433_S1433x128_S2000x128_1_0_0_1_n_n.contr.Idx) :
    (dot_S2000x1433_S1433x128_S2000x128_1_0_0_1_n_n.rhsIdx i q 0).val = (q ⟨0, by decide⟩).val :=
  dot_S2000x1433_S1433x128_S2000x128_1_0_0_1_n_n.rhsIdx_val_of_single rfl i q
/-- and the output's column on the column axis. -/
theorem rhsA_1 (i : S2000x128.Idx) (q : dot_S2000x1433_S1433x128_S2000x128_1_0_0_1_n_n.contr.Idx) :
    (dot_S2000x1433_S1433x128_S2000x128_1_0_0_1_n_n.rhsIdx i q 1).val = (i 1).val := by
  unfold DotDims.rhsIdx
  rw [dif_neg (show ¬(1 : Fin S1433x128.rank) ∈ dot_S2000x1433_S1433x128_S2000x128_1_0_0_1_n_n.rhsBatch by decide), dif_pos (show (1 : Fin S1433x128.rank) ∈ dot_S2000x1433_S1433x128_S2000x128_1_0_0_1_n_n.rhsNonContracting by decide)]
  rfl

/-- Row `i 0`, position `k` of the left block. -/
abbrev rowA (i : S2000x128.Idx) (k : Fin 1433) : S2000x1433.Idx := fun a => match a with
  | ⟨0, _⟩ => ⟨(i 0).val, (i 0).isLt⟩
  | ⟨1, _⟩ => ⟨k.val, k.isLt⟩
/-- Position `k`, column `i 1` of the weights. -/
abbrev colA (i : S2000x128.Idx) (k : Fin 1433) : S1433x128.Idx := fun a => match a with
  | ⟨0, _⟩ => ⟨k.val, k.isLt⟩
  | ⟨1, _⟩ => ⟨(i 1).val, (i 1).isLt⟩

/-- What the first body stores, at an index: a row of the block times a column of the weights. -/
theorem payA_apply (x0 : Vec Ideal S2000x1433 .f32) (x1 : Vec Ideal S1433x128 .f32) (i : S2000x128.Idx) :
    k0_pay1 (F := Ideal) x0 x1 i = ∑ k : Fin 1433, x0 (rowA i k) * x1 (colA i k) := by
  unfold k0_pay1
  simp only [matmul]
  rw [Ideal.matmul_constant_zero_apply, ← Equiv.sum_comp (ValueIdx.contrEquiv1 dot_S2000x1433_S1433x128_S2000x128_1_0_0_1_n_n 1433 rfl rfl).symm]
  refine Finset.sum_congr rfl fun k _ => ?_
  have hk := ValueIdx.contrEquiv1_symm_val dot_S2000x1433_S1433x128_S2000x128_1_0_0_1_n_n 1433 rfl rfl k
  have el : dot_S2000x1433_S1433x128_S2000x128_1_0_0_1_n_n.lhsIdx i ((ValueIdx.contrEquiv1 dot_S2000x1433_S1433x128_S2000x128_1_0_0_1_n_n 1433 rfl rfl).symm k) = rowA i k := funext fun a => Fin.ext (by
    match a with
    | ⟨0, _⟩ => exact lhsA_0 _ _
    | ⟨1, _⟩ => exact (lhsA_1 _ _).trans hk)
  have er : dot_S2000x1433_S1433x128_S2000x128_1_0_0_1_n_n.rhsIdx i ((ValueIdx.contrEquiv1 dot_S2000x1433_S1433x128_S2000x128_1_0_0_1_n_n 1433 rfl rfl).symm k) = colA i k := funext fun a => Fin.ext (by
    match a with
    | ⟨0, _⟩ => exact (rhsA_0 _ _).trans hk
    | ⟨1, _⟩ => exact rhsA_1 _ _)
  rw [el, er]
  rfl

/-! ## Second call: a [4000, 128] block of rows times the [128, 64] weights -/

theorem lhsB_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhsB_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhsB_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhsB_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

abbrev rowB (i : S4000x64.Idx) (k : Fin 128) : S4000x128.Idx := fun a => match a with
  | ⟨0, _⟩ => ⟨(i 0).val, (i 0).isLt⟩
  | ⟨1, _⟩ => ⟨k.val, k.isLt⟩
abbrev colB (i : S4000x64.Idx) (k : Fin 128) : S128x64.Idx := fun a => match a with
  | ⟨0, _⟩ => ⟨k.val, k.isLt⟩
  | ⟨1, _⟩ => ⟨(i 1).val, (i 1).isLt⟩

/-- What the second body stores, at an index (its reshape of the block to its own shape changes nothing). -/
theorem payB_apply (x0 : Vec Ideal S4000x128 .f32) (x1 : Vec Ideal S128x64 .f32) (i : S4000x64.Idx) :
    k1_pay1 (F := Ideal) x0 x1 i = ∑ k : Fin 128, x0 (rowB i k) * x1 (colB i k) := by
  unfold k1_pay1
  simp only [matmul, shapeCast_self]
  rw [Ideal.matmul_constant_zero_apply, ← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx i ((ValueIdx.contrEquiv1 dot_S4000x128_S128x64_S4000x64_1_0_0_1_n_n 128 rfl rfl).symm k) = rowB i k := funext fun a => Fin.ext (by
    match a with
    | ⟨0, _⟩ => exact lhsB_0 _ _
    | ⟨1, _⟩ => exact (lhsB_1 _ _).trans hk)
  have er : dot_S4000x128_S128x64_S4000x64_1_0_0_1_n_n.rhsIdx i ((ValueIdx.contrEquiv1 dot_S4000x128_S128x64_S4000x64_1_0_0_1_n_n 128 rfl rfl).symm k) = colB i k := funext fun a => Fin.ext (by
    match a with
    | ⟨0, _⟩ => exact (rhsB_0 _ _).trans hk
    | ⟨1, _⟩ => exact rhsB_1 _ _)
  rw [el, er]
  rfl

end Cert.KernelIdeal.BlockProduct

end
-- ==== Proof.RowProduct.lean ====
/- The two linear maps of the encoder read at an index, at the ideal values: entry (r, q) of x · W is the sum over
   the shared axis of  x (r, k) * W (k, q). -/
import proofs.«107283_j11751030522455_1_alg».proof.Proof.Layers
import proofs.«107283_j11751030522455_1_alg».proof.Proof.RefRead

noncomputable section

namespace Cert.ReferenceIdeal.Layers

open Cert.ReferenceIdeal Cert.ReferenceIdeal.Gen Idealize.ShloMosaic Idealize.ShloMosaic.TcCoe Idealize.SL.Sem Idealize.ShloMosaic.StableHlo
open Cert.ReferenceIdeal.ReadP

/-- The first linear map at an index: 1433 products. -/
theorem lin1_apply (x : (⟨S100000x1433, .f32⟩ : BufTy).Contents (Elt Ideal)) (w : (⟨S1433x128, .f32⟩ : BufTy).Contents (Elt Ideal)) (i : S100000x128.Idx) :
    lin1 (F := Ideal) x w i = ∑ k : Fin 1433, x (lidx_main_v32 i k) * w (ridx_main_v32 i k) :=
  val_main_v32_apply x w i

/-- The second linear map at an index, for any left operand: 128 products. -/
theorem lin2_apply (a : (⟨S100000x128, .f32⟩ : BufTy).Contents (Elt Ideal)) (w : (⟨S128x64, .f32⟩ : BufTy).Contents (Elt Ideal)) (i : S100000x64.Idx) :
    lin2 (F := Ideal) a w i = ∑ k : Fin 128, a (lidx_main_v50 i k) * w (ridx_main_v50 i k) := by
  unfold lin2
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = lidx_main_v50 i k := funext fun a => Fin.ext (by
    match a with
    | ⟨0, _⟩ => exact lhs_main_v50_0 _ _
    | ⟨1, _⟩ => exact (lhs_main_v50_1 _ _).trans hk)
  have er : dot_S100000x128_S128x64_S100000x64_1_0_0_1_n_n.rhsIdx i ((ValueIdx.contrEquiv1 dot_S100000x128_S128x64_S100000x64_1_0_0_1_n_n 128 rfl rfl).symm k) = ridx_main_v50 i k := funext fun a => Fin.ext (by
    match a with
    | ⟨0, _⟩ => exact (rhs_main_v50_0 _ _).trans hk
    | ⟨1, _⟩ => exact rhs_main_v50_1 _ _)
  rw [el, er]

end Cert.ReferenceIdeal.Layers

end
-- ==== Proof.RegionA.lean ====
/- What the first kernel region leaves in its output array, at the ideal values, whatever the buffers hold when the
   region is entered: the grid's points write back disjoint blocks of rows, each block the product of the matching
   block of rows of the left array with the whole right array, so together they are the one whole product. -/
import proofs.«107283_j11751030522455_1_alg».proof.Proof.Gen.KernelIdeal.Frame
import proofs.«107283_j11751030522455_1_alg».proof.Proof.BlockProduct
import proofs.«107283_j11751030522455_1_alg».proof.Proof.RowProduct
import Idealize.ShloMosaic.Lib.Pipeline.Value

set_option maxRecDepth 16384

noncomputable section

namespace Cert.KernelIdeal.RegionA

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first call: 50 blocks of 2000 rows of the left array, each times the whole right array -/

/-- The block indices over the 50 points: the row blocks of the left operand and of the output move with the point, the
    weights stay at block (0, 0). -/
theorem idxA : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the whole linear map of the two arrays as the region finds them:
    row r of the block is row 2000·t + r of the left array, and the sum over the shared axis is the same sum. -/
theorem flushedA (c : Dev nD) (t : Fin cfg0.N) :
    (dat0 V c).flushed 2 t = ((cfg0.win 2).blk t).view.read (Elt Ideal)
      (Cert.ReferenceIdeal.Layers.lin1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S2000x1433) hz, View.ld_unit_zero (S := S1433x128) hz]
  obtain ⟨e0, e1, e2, e3, e4, e5⟩ := idxA t
  funext j
  refine (Cert.KernelIdeal.BlockProduct.payA_apply _ _ j).trans ?_
  refine Eq.trans ?_ (Cert.ReferenceIdeal.Layers.lin1_apply (V c main_arg0) (V c main_arg2) _).symm
  refine Finset.sum_congr rfl fun k _ => ?_
  have hj0 : (j 0).val < 2000 := (j 0).isLt
  have hj1 : (j 1).val < 128 := (j 1).isLt
  have hk : k.val < 1433 := k.isLt
  have hx : iblk0 V c 0 t (Cert.KernelIdeal.BlockProduct.rowA j k) = V c main_arg0 (Cert.ReferenceIdeal.ReadP.lidx_main_v32 (((cfg0.win 2).blk t).view.emb j) k) := by
    unfold iblk0
    rw [View.read_apply]
    show V c main_arg0 _ = V c main_arg0 _
    congr 1
    funext a
    apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 1433 + 1 * k.val = k.val; omega
  have hw : iblk0 V c 1 t (Cert.KernelIdeal.BlockProduct.colA j k) = V c main_arg2 (Cert.ReferenceIdeal.ReadP.ridx_main_v32 (((cfg0.win 2).blk t).view.emb j) k) := by
    unfold iblk0
    rw [View.read_apply]
    show V c main_arg2 _ = V c main_arg2 _
    congr 1
    funext a
    apply Fin.ext
    match a with
    | ⟨0, _⟩ => show win0_1.index t (0 : Fin 2) * 1433 + 1 * k.val = k.val; omega
    | ⟨1, _⟩ => show win0_1.index t (1 : Fin 2) * 128 + 1 * (j 1).val = win0_2.index t (1 : Fin 2) * 128 + 1 * (j 1).val; omega
  exact congrArg₂ (· * ·) hx hw

/-- An index of the output array is in point `t`'s block iff each coordinate is in the block's range on its axis. -/
theorem mem_blkA (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Every row of the output lies in the block of the point numbered row / 2000: the 50 blocks tile the array. -/
theorem coverA (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, e4, e5⟩ := idxA ⟨(i 0).val / 2000, ht⟩
  refine ⟨⟨(i 0).val / 2000, ht⟩, flush0_2 _, ?_⟩
  rw [mem_blkA]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; rw [e4]; show (i 0).val / 2000 * 2000 ≤ (i 0).val ∧ (i 0).val < (i 0).val / 2000 * 2000 + 2000; omega
  | ⟨1, _⟩ => show win0_2.index ⟨(i 0).val / 2000, ht⟩ (1 : Fin 2) * 128 ≤ (i 1).val ∧ (i 1).val < win0_2.index ⟨(i 0).val / 2000, ht⟩ (1 : Fin 2) * 128 + 128; rw [e5]; omega

/-- THE OUTPUT ARRAY after the region: the whole linear map of the two input arrays as the region finds them. -/
theorem finalA (c : Dev nD) :
    (dat0 V c).arrAt 2 cfg0.N = Cert.ReferenceIdeal.Layers.lin1 (F := Ideal) (V c main_arg0) (V c main_arg2) :=
  (dat0 V c).arrAt_eq_of_cover 2 _ (fun t _ => flushedA V c t) coverA

end Cert.KernelIdeal.RegionA

end
-- ==== Proof.RegionB.lean ====
/- What the second kernel region leaves in its output array, at the ideal values, whatever the buffers hold when the
   region is entered: the grid's points write back disjoint blocks of rows, each block the product of the matching
   block of rows of the left array with the whole right array, so together they are the one whole product. -/
import proofs.«107283_j11751030522455_1_alg».proof.Proof.Gen.KernelIdeal.Frame
import proofs.«107283_j11751030522455_1_alg».proof.Proof.BlockProduct
import proofs.«107283_j11751030522455_1_alg».proof.Proof.RowProduct
import Idealize.ShloMosaic.Lib.Pipeline.Value

set_option maxRecDepth 16384

noncomputable section

namespace Cert.KernelIdeal.RegionB

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The second call: 25 blocks of 4000 rows of the left array, each times the whole right array -/

/-- The block indices over the 25 points: the row blocks of the left operand and of the output move with the point, the
    weights stay at block (0, 0). -/
theorem idxB : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the whole linear map of the two arrays as the region finds them:
    row r of the block is row 4000·t + r of the left array, and the sum over the shared axis is the same sum. -/
theorem flushedB (c : Dev nD) (t : Fin cfg1.N) :
    (dat1 V c).flushed 2 t = ((cfg1.win 2).blk t).view.read (Elt Ideal)
      (Cert.ReferenceIdeal.Layers.lin2 (F := Ideal) (V c main_v49) (V c main_arg4)) := by
  show (cfg1.win 2).cut (grid1.coords t) ((dat1 V c).after 2 t) = _
  rw [after1_2]
  unfold out1_2
  rw [View.canon_unit_zero hz]
  simp only [View.ld_unit_zero (S := S4000x128) hz, View.ld_unit_zero (S := S128x64) hz]
  obtain ⟨e0, e1, e2, e3, e4, e5⟩ := idxB t
  funext j
  refine (Cert.KernelIdeal.BlockProduct.payB_apply _ _ j).trans ?_
  refine Eq.trans ?_ (Cert.ReferenceIdeal.Layers.lin2_apply (V c main_v49) (V c main_arg4) _).symm
  refine Finset.sum_congr rfl fun k _ => ?_
  have hj0 : (j 0).val < 4000 := (j 0).isLt
  have hj1 : (j 1).val < 64 := (j 1).isLt
  have hk : k.val < 128 := k.isLt
  have hx : iblk1 V c 0 t (Cert.KernelIdeal.BlockProduct.rowB j k) = V c main_v49 (Cert.ReferenceIdeal.ReadP.lidx_main_v50 (((cfg1.win 2).blk t).view.emb j) k) := by
    unfold iblk1
    rw [View.read_apply]
    show V c main_v49 _ = V c main_v49 _
    congr 1
    funext a
    apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 128 + 1 * k.val = k.val; omega
  have hw : iblk1 V c 1 t (Cert.KernelIdeal.BlockProduct.colB j k) = V c main_arg4 (Cert.ReferenceIdeal.ReadP.ridx_main_v50 (((cfg1.win 2).blk t).view.emb j) k) := by
    unfold iblk1
    rw [View.read_apply]
    show V c main_arg4 _ = V c main_arg4 _
    congr 1
    funext a
    apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  exact congrArg₂ (· * ·) hx hw

/-- An index of the output array is in point `t`'s block iff each coordinate is in the block's range on its axis. -/
theorem mem_blkB (t : Fin cfg1.N) (i : S100000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v50).slice (win1_2.rect t)).set ↔ _
  rw [View.set_slice_whole, Rect.mem_set_unit]
  exact Iff.rfl

/-- Every row of the output lies in the block of the point numbered row / 4000: the 25 blocks tile the array. -/
theorem coverB (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 25 := N_1
  have ht : (i 0).val / 4000 < cfg1.N := by rw [hN]; omega
  obtain ⟨-, -, -, -, e4, e5⟩ := idxB ⟨(i 0).val / 4000, ht⟩
  refine ⟨⟨(i 0).val / 4000, ht⟩, flush1_2 _, ?_⟩
  rw [mem_blkB]
  intro a
  match a with
  | ⟨0, _⟩ => show win1_2.index ⟨(i 0).val / 4000, ht⟩ (0 : Fin 2) * 4000 ≤ (i 0).val ∧ (i 0).val < win1_2.index ⟨(i 0).val / 4000, ht⟩ (0 : Fin 2) * 4000 + 4000; rw [e4]; show (i 0).val / 4000 * 4000 ≤ (i 0).val ∧ (i 0).val < (i 0).val / 4000 * 4000 + 4000; omega
  | ⟨1, _⟩ => show win1_2.index ⟨(i 0).val / 4000, ht⟩ (1 : Fin 2) * 64 ≤ (i 1).val ∧ (i 1).val < win1_2.index ⟨(i 0).val / 4000, ht⟩ (1 : Fin 2) * 64 + 64; rw [e5]; omega

/-- THE OUTPUT ARRAY after the region: the whole linear map of the two input arrays as the region finds them. -/
theorem finalB (c : Dev nD) :
    (dat1 V c).arrAt 2 cfg1.N = Cert.ReferenceIdeal.Layers.lin2 (F := Ideal) (V c main_v49) (V c main_arg4) :=
  (dat1 V c).arrAt_eq_of_cover 2 _ (fun t _ => flushedB V c t) coverB

end Cert.KernelIdeal.RegionB

end
-- ==== Proof.KernelValue.lean ====
/- The idealized kernel program's result as the encoder of its launch contents.
   Between the launch and the return the program's buffers pass through eight boundaries. Up to the first region the
   host computes the graph's bookkeeping (sources, targets, edge weights) from the edge list; the first region writes
   x · W1; the host aggregates it over the edges, adds b1 and rectifies; the second region multiplies by W2; the host
   aggregates again and adds b2. Each host stretch is read as a function of the buffers it starts from, whatever they
   hold; the buffers a stretch or a region does not write are carried across it; the two regions' arrays are the whole
   linear maps (at the ideal values). Composed, the result buffer holds the encoder of the six arguments. -/
import proofs.«107283_j11751030522455_1_alg».proof.Proof.Gen.KernelIdeal.Frame
import proofs.«107283_j11751030522455_1_alg».proof.Proof.Layers
import proofs.«107283_j11751030522455_1_alg».proof.Proof.RegionA
import proofs.«107283_j11751030522455_1_alg».proof.Proof.RegionB
import proofs.«107283_j11751030522455_1_alg».proof.Proof.KernelRun
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo
open Cert.ReferenceIdeal.Layers

/-! ## The host stretches, each from arbitrary contents `U` -/

section Stretches

variable {F : FTy → Type} [FloatOps F] (U : Valuation τ sig (Elt F))

/-- Each operation's result at its own buffer is its function's value, and at any other buffer what was there:
    rewritten wherever such results still stand, as they do among the operands of a joined list. -/
local macro "results_inside" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- After the first two stretches the sources are row 0 of the edge list followed by every node. -/
theorem src_after (U : Valuation τ sig (Elt F)) :
    StableHlo.after hostOps0_1 (StableHlo.after hostOps0 U) (Proc.devRef .tc main_v3) = srcOf (U (Proc.devRef .tc main_arg1)) := by
  after_results <;> rfl

/-- The targets are row 1 followed by every node. -/
theorem dst_after (U : Valuation τ sig (Elt F)) :
    StableHlo.after hostOps0_1 (StableHlo.after hostOps0 U) (Proc.devRef .tc main_v6) = dstOf (U (Proc.devRef .tc main_arg1)) := by
  after_results <;> rfl

set_option maxHeartbeats 1000000 in
/-- The nodes' scalings: the inverse square root of each node's in-degree, zero where the degree is not positive. -/
theorem dinv_after (U : Valuation τ sig (Elt F)) :
    StableHlo.after hostOps0_1 (StableHlo.after hostOps0 U) (Proc.devRef .tc main_v16) = dinvOf (degOf (dstOf (U (Proc.devRef .tc main_arg1)))) := by
  after_results_simp
  results_inside
  rfl

/-- The third stretch multiplies the scalings gathered at each edge's two ends. -/
theorem norm_step (U : Valuation τ sig (Elt F)) :
    StableHlo.after hostOps0_2 U (Proc.devRef .tc main_v31)
      = normWith (U (Proc.devRef .tc main_v16)) (U (Proc.devRef .tc main_v3)) (U (Proc.devRef .tc main_v6)) := by
  after_results_simp <;> rfl

/-- It leaves the sources and the targets where they were. -/
theorem src_step (U : Valuation τ sig (Elt F)) :
    StableHlo.after hostOps0_2 U (Proc.devRef .tc main_v3) = U (Proc.devRef .tc main_v3) := by
  after_results_simp <;> rfl
theorem dst_step (U : Valuation τ sig (Elt F)) :
    StableHlo.after hostOps0_2 U (Proc.devRef .tc main_v6) = U (Proc.devRef .tc main_v6) := by
  after_results_simp <;> rfl

/-- The fourth and fifth stretches: aggregate the first linear map's rows over the edges, add the bias, rectify. -/
theorem hidden_after (U : Valuation τ sig (Elt F)) :
    StableHlo.after hostOps1_1 (StableHlo.after hostOps1 U) (Proc.devRef .tc main_v49)
      = relu128 (layer128 (U (Proc.devRef .tc main_v3)) (U (Proc.devRef .tc main_v6)) (U (Proc.devRef .tc main_v31))
          (U (Proc.devRef .tc main_v32)) (U (Proc.devRef .tc main_arg3))) := by
  after_results_simp <;> rfl

/-- They leave the graph's bookkeeping and the later arguments where they were. -/
theorem src_mid (U : Valuation τ sig (Elt F)) :
    StableHlo.after hostOps1_1 (StableHlo.after hostOps1 U) (Proc.devRef .tc main_v3) = U (Proc.devRef .tc main_v3) := by
  after_results_simp <;> rfl
theorem dst_mid (U : Valuation τ sig (Elt F)) :
    StableHlo.after hostOps1_1 (StableHlo.after hostOps1 U) (Proc.devRef .tc main_v6) = U (Proc.devRef .tc main_v6) := by
  after_results_simp <;> rfl
theorem norm_mid (U : Valuation τ sig (Elt F)) :
    StableHlo.after hostOps1_1 (StableHlo.after hostOps1 U) (Proc.devRef .tc main_v31) = U (Proc.devRef .tc main_v31) := by
  after_results_simp <;> rfl

/-- The last stretch: aggregate the second linear map's rows over the edges and add the bias. -/
theorem out_after (U : Valuation τ sig (Elt F)) :
    StableHlo.after hostOps2 U (Proc.devRef .tc main_v66)
      = layer64 (U (Proc.devRef .tc main_v3)) (U (Proc.devRef .tc main_v6)) (U (Proc.devRef .tc main_v31))
          (U (Proc.devRef .tc main_v50)) (U (Proc.devRef .tc main_arg5)) := by
  after_results_simp <;> rfl

/-- The first three stretches leave the arguments they do not write where they were. -/
theorem x_first (U : Valuation τ sig (Elt F)) :
    StableHlo.after hostOps0_2 (StableHlo.after hostOps0_1 (StableHlo.after hostOps0 U)) (Proc.devRef .tc main_arg0) = U (Proc.devRef .tc main_arg0) := by
  after_results_simp <;> rfl
theorem w1_first (U : Valuation τ sig (Elt F)) :
    StableHlo.after hostOps0_2 (StableHlo.after hostOps0_1 (StableHlo.after hostOps0 U)) (Proc.devRef .tc main_arg2) = U (Proc.devRef .tc main_arg2) := by
  after_results_simp <;> rfl
theorem b1_first (U : Valuation τ sig (Elt F)) :
    StableHlo.after hostOps0_2 (StableHlo.after hostOps0_1 (StableHlo.after hostOps0 U)) (Proc.devRef .tc main_arg3) = U (Proc.devRef .tc main_arg3) := by
  after_results_simp <;> rfl
theorem w2_first (U : Valuation τ sig (Elt F)) :
    StableHlo.after hostOps0_2 (StableHlo.after hostOps0_1 (StableHlo.after hostOps0 U)) (Proc.devRef .tc main_arg4) = U (Proc.devRef .tc main_arg4) := by
  after_results_simp <;> rfl
theorem b2_first (U : Valuation τ sig (Elt F)) :
    StableHlo.after hostOps0_2 (StableHlo.after hostOps0_1 (StableHlo.after hostOps0 U)) (Proc.devRef .tc main_arg5) = U (Proc.devRef .tc main_arg5) := by
  after_results_simp <;> rfl
/-- So do the fourth and fifth. -/
theorem w2_mid (U : Valuation τ sig (Elt F)) :
    StableHlo.after hostOps1_1 (StableHlo.after hostOps1 U) (Proc.devRef .tc main_arg4) = U (Proc.devRef .tc main_arg4) := by
  after_results_simp <;> rfl
theorem b2_mid (U : Valuation τ sig (Elt F)) :
    StableHlo.after hostOps1_1 (StableHlo.after hostOps1 U) (Proc.devRef .tc main_arg5) = U (Proc.devRef .tc main_arg5) := by
  after_results_simp <;> rfl

end Stretches

/-! ## The boundaries' contents, at the ideal values -/

section Compose

variable (m : (ℓ : Loc nD τ sig) → Buf (Elt Ideal) ℓ) (ρ : Dev nD → PrngReg)

/-! ### When the first region is entered -/

theorem src3 (c : Dev nD) : W3 m ρ c (Proc.devRef .tc main_v3) = srcOf (m ((c : Thread nD τ).loc main_arg1)) :=
  (src_step (W2 m ρ c)).trans (src_after (W0 m ρ c))
theorem dst3 (c : Dev nD) : W3 m ρ c (Proc.devRef .tc main_v6) = dstOf (m ((c : Thread nD τ).loc main_arg1)) :=
  (dst_step (W2 m ρ c)).trans (dst_after (W0 m ρ c))
theorem norm3 (c : Dev nD) : W3 m ρ c (Proc.devRef .tc main_v31)
    = normOf (srcOf (m ((c : Thread nD τ).loc main_arg1))) (dstOf (m ((c : Thread nD τ).loc main_arg1))) := by
  refine (norm_step (W2 m ρ c)).trans ?_
  rw [show W2 m ρ c (Proc.devRef .tc main_v16) = _ from dinv_after (W0 m ρ c),
    show W2 m ρ c (Proc.devRef .tc main_v3) = _ from src_after (W0 m ρ c),
    show W2 m ρ c (Proc.devRef .tc main_v6) = _ from dst_after (W0 m ρ c)]
  rfl
theorem x3 (c : Dev nD) : W3 m ρ c (Proc.devRef .tc main_arg0) = m ((c : Thread nD τ).loc main_arg0) := x_first (W0 m ρ c)
theorem w1_3 (c : Dev nD) : W3 m ρ c (Proc.devRef .tc main_arg2) = m ((c : Thread nD τ).loc main_arg2) := w1_first (W0 m ρ c)
theorem b1_3 (c : Dev nD) : W3 m ρ c (Proc.devRef .tc main_arg3) = m ((c : Thread nD τ).loc main_arg3) := b1_first (W0 m ρ c)
theorem w2_3 (c : Dev nD) : W3 m ρ c (Proc.devRef .tc main_arg4) = m ((c : Thread nD τ).loc main_arg4) := w2_first (W0 m ρ c)
theorem b2_3 (c : Dev nD) : W3 m ρ c (Proc.devRef .tc main_arg5) = m ((c : Thread nD τ).loc main_arg5) := b2_first (W0 m ρ c)

/-! ### When it is left: its output array holds x · W1, every other buffer what it held -/

theorem lin4 (c : Dev nD) : W4 m ρ c (Proc.devRef .tc main_v32)
    = lin1 (F := Ideal) (m ((c : Thread nD τ).loc main_arg0)) (m ((c : Thread nD τ).loc main_arg2)) := by
  refine (W4_arr m ρ c 2).trans ((Cert.KernelIdeal.RegionA.finalA (V3 m ρ) c).trans ?_)
  rw [show V3 m ρ c main_arg0 = _ from x3 m ρ c, show V3 m ρ c main_arg2 = _ from w1_3 m ρ c]
theorem src4 (c : Dev nD) : W4 m ρ c (Proc.devRef .tc main_v3) = srcOf (m ((c : Thread nD τ).loc main_arg1)) :=
  (W4_of_ne m ρ c main_v3 (by decide)).trans (src3 m ρ c)
theorem dst4 (c : Dev nD) : W4 m ρ c (Proc.devRef .tc main_v6) = dstOf (m ((c : Thread nD τ).loc main_arg1)) :=
  (W4_of_ne m ρ c main_v6 (by decide)).trans (dst3 m ρ c)
theorem norm4 (c : Dev nD) : W4 m ρ c (Proc.devRef .tc main_v31)
    = normOf (srcOf (m ((c : Thread nD τ).loc main_arg1))) (dstOf (m ((c : Thread nD τ).loc main_arg1))) :=
  (W4_of_ne m ρ c main_v31 (by decide)).trans (norm3 m ρ c)
theorem b1_4 (c : Dev nD) : W4 m ρ c (Proc.devRef .tc main_arg3) = m ((c : Thread nD τ).loc main_arg3) :=
  (W4_of_ne m ρ c main_arg3 (by decide)).trans (b1_3 m ρ c)
theorem w2_4 (c : Dev nD) : W4 m ρ c (Proc.devRef .tc main_arg4) = m ((c : Thread nD τ).loc main_arg4) :=
  (W4_of_ne m ρ c main_arg4 (by decide)).trans (w2_3 m ρ c)
theorem b2_4 (c : Dev nD) : W4 m ρ c (Proc.devRef .tc main_arg5) = m ((c : Thread nD τ).loc main_arg5) :=
  (W4_of_ne m ρ c main_arg5 (by decide)).trans (b2_3 m ρ c)

/-! ### When the second region is entered: the hidden features -/

theorem hidden6 (c : Dev nD) : W6 m ρ c (Proc.devRef .tc main_v49)
    = hidden (m ((c : Thread nD τ).loc main_arg1))
        (lin1 (F := Ideal) (m ((c : Thread nD τ).loc main_arg0)) (m ((c : Thread nD τ).loc main_arg2))) (m ((c : Thread nD τ).loc main_arg3)) := by
  refine (hidden_after (W4 m ρ c)).trans ?_
  rw [src4 m ρ c, dst4 m ρ c, norm4 m ρ c, lin4 m ρ c, b1_4 m ρ c]
  rfl
theorem src6 (c : Dev nD) : W6 m ρ c (Proc.devRef .tc main_v3) = srcOf (m ((c : Thread nD τ).loc main_arg1)) :=
  (src_mid (W4 m ρ c)).trans (src4 m ρ c)
theorem dst6 (c : Dev nD) : W6 m ρ c (Proc.devRef .tc main_v6) = dstOf (m ((c : Thread nD τ).loc main_arg1)) :=
  (dst_mid (W4 m ρ c)).trans (dst4 m ρ c)
theorem norm6 (c : Dev nD) : W6 m ρ c (Proc.devRef .tc main_v31)
    = normOf (srcOf (m ((c : Thread nD τ).loc main_arg1))) (dstOf (m ((c : Thread nD τ).loc main_arg1))) :=
  (norm_mid (W4 m ρ c)).trans (norm4 m ρ c)
theorem w2_6 (c : Dev nD) : W6 m ρ c (Proc.devRef .tc main_arg4) = m ((c : Thread nD τ).loc main_arg4) :=
  (w2_mid (W4 m ρ c)).trans (w2_4 m ρ c)
theorem b2_6 (c : Dev nD) : W6 m ρ c (Proc.devRef .tc main_arg5) = m ((c : Thread nD τ).loc main_arg5) :=
  (b2_mid (W4 m ρ c)).trans (b2_4 m ρ c)

/-! ### When it is left: its output array holds hidden · W2 -/

theorem lin7 (c : Dev nD) : W7 m ρ c (Proc.devRef .tc main_v50)
    = lin2 (F := Ideal) (hidden (m ((c : Thread nD τ).loc main_arg1))
        (lin1 (F := Ideal) (m ((c : Thread nD τ).loc main_arg0)) (m ((c : Thread nD τ).loc main_arg2))) (m ((c : Thread nD τ).loc main_arg3)))
        (m ((c : Thread nD τ).loc main_arg4)) := by
  refine (W7_arr m ρ c 2).trans ((Cert.KernelIdeal.RegionB.finalB (V6 m ρ) c).trans ?_)
  rw [show V6 m ρ c main_v49 = _ from hidden6 m ρ c, show V6 m ρ c main_arg4 = _ from w2_6 m ρ c]
theorem src7 (c : Dev nD) : W7 m ρ c (Proc.devRef .tc main_v3) = srcOf (m ((c : Thread nD τ).loc main_arg1)) :=
  (W7_of_ne m ρ c main_v3 (by decide)).trans (src6 m ρ c)
theorem dst7 (c : Dev nD) : W7 m ρ c (Proc.devRef .tc main_v6) = dstOf (m ((c : Thread nD τ).loc main_arg1)) :=
  (W7_of_ne m ρ c main_v6 (by decide)).trans (dst6 m ρ c)
theorem norm7 (c : Dev nD) : W7 m ρ c (Proc.devRef .tc main_v31)
    = normOf (srcOf (m ((c : Thread nD τ).loc main_arg1))) (dstOf (m ((c : Thread nD τ).loc main_arg1))) :=
  (W7_of_ne m ρ c main_v31 (by decide)).trans (norm6 m ρ c)
theorem b2_7 (c : Dev nD) : W7 m ρ c (Proc.devRef .tc main_arg5) = m ((c : Thread nD τ).loc main_arg5) :=
  (W7_of_ne m ρ c main_arg5 (by decide)).trans (b2_6 m ρ c)

/-! ### At the return -/

/-- The result buffer holds the encoder of the six arguments as launched. -/
theorem result (c : Dev nD) : W8 m ρ c (Proc.devRef .tc main_v66)
    = gcn (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (out_after (W7 m ρ c)).trans ?_
  rw [src7 m ρ c, dst7 m ρ c, norm7 m ρ c, lin7 m ρ c, b2_7 m ρ c]
  rfl

/-- The idealized kernel program's run, read: every weakly fair execution terminates with the result buffer at the
    encoder of the arguments and the arguments unchanged. -/
theorem run : θ_run defs (onTc (τ := τ) (main (F := Ideal))) ⟨m, fun _ => 0, ρ⟩ fun r => ∀ c : Dev nD,
      r.2.mem ((c.tc : Thread nD τ).loc main_v66)
        = gcn (F := Ideal) (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (result m ρ c), (h c).2⟩) (Cert.KernelIdeal.RunP.run_result m ρ)

end Compose

end Cert.KernelIdeal.Result

end
-- ==== Proof.lean ====
/- A two-layer graph convolution: features x, an edge list, weights W1, b1, W2, b2.
   Both programs compute  layer₂ (relu (layer₁ (x · W1) b1) · W2) b2,  where a layer gathers each edge's source row, scales
   it by the edge's symmetric normalisation, adds the rows up at the edge's target and adds the bias. They differ only in
   the two linear maps: the reference multiplies whole arrays, the kernel program multiplies them block of rows by block
   of rows (50 blocks of 2000 rows, then 25 of 4000) after rounding both factors to bf16. On the extended reals the
   rounding is the identity and a product of a block of rows is the same block of the whole product, each entry the
   same finite sum; every other operation is literally the same in the two programs. So the two results are one
   function of the arguments (Proof/Layers.lean: `gcn`), and no law used needs the inputs to be finite.
     Proof/BlockProduct.lean   a kernel body's stored value at an index: a row times a column;
     Proof/RowProduct.lean     the whole linear maps at an index: the same sums;
     Proof/RegionA.lean, RegionB.lean   each region's output array after the region: the whole linear map;
     Proof/KernelRun.lean      the kernel program's run with the result buffer kept;
     Proof/KernelValue.lean    the host stretches between the regions, composed: the result is `gcn` of the arguments;
     Proof/RefRun.lean         the reference's run;  Proof/Layers.lean: its term is `gcn` of the arguments. -/
import proofs.«107283_j11751030522455_1_alg».proof.Defs
import proofs.«107283_j11751030522455_1_alg».proof.Proof.Gen.Kernel
import proofs.«107283_j11751030522455_1_alg».proof.Proof.Gen.Kernel.Skeleton
import proofs.«107283_j11751030522455_1_alg».proof.Proof.Gen.Kernel.Launch
import proofs.«107283_j11751030522455_1_alg».proof.Proof.Gen.Kernel.Points
import proofs.«107283_j11751030522455_1_alg».proof.Proof.Gen.Kernel.Frame
import proofs.«107283_j11751030522455_1_alg».proof.Proof.Gen.KernelIdeal
import proofs.«107283_j11751030522455_1_alg».proof.Proof.Gen.KernelIdeal.Skeleton
import proofs.«107283_j11751030522455_1_alg».proof.Proof.Gen.KernelIdeal.Launch
import proofs.«107283_j11751030522455_1_alg».proof.Proof.Gen.KernelIdeal.Points
import proofs.«107283_j11751030522455_1_alg».proof.Proof.Gen.KernelIdeal.Frame
import proofs.«107283_j11751030522455_1_alg».proof.Proof.Gen.ReferenceIdeal
import proofs.«107283_j11751030522455_1_alg».proof.Proof.Gen.Pre_finite_inputs
import proofs.«107283_j11751030522455_1_alg».proof.Proof.RefRun
import proofs.«107283_j11751030522455_1_alg».proof.Proof.Layers
import proofs.«107283_j11751030522455_1_alg».proof.Proof.KernelValue
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- Over the extended reals both programs end with the encoder of their arguments in the result buffer, and the
    arguments agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Layers.res_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
